-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : FVec F S4096 .f32) (main_arg2 : FVec F S4096x4096 .f32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Visit.lean ====
/-
  What one visit of a grid point leaves behind, case by case.

  The kernel walks a 4 x 4 x 4 grid; the last coordinate k runs over the four blocks of 1024 along the contracted
  axis. A scratch tile of 1024 x 1024 carries the running total of one output tile across the four values of k:

    k = 0      the scratch is first zeroed, then receives  0   + (x-tile * mask-row) . weight-tile ;
    k = 1, 2   the scratch receives                      old + (x-tile * mask-row) . weight-tile ;
    k = 3      the same update, after which the output tile is the new scratch plus the bias row.

  Each lemma below says which pure function of the loaded tiles (the body's arithmetic, named once per store) a case
  leaves in the scratch or in the output tile: the last store into a buffer covers it whole, so what is read back is
  that store's value, and a load that follows a covering store of the same visit reads the value just stored.
-/
import proofs.«127409_j4252017623323_1_alg».proof.Proof.Gen.KernelIdeal.Frame
import Idealize.ShloMosaic.Lib.Pipeline.Value
import Idealize.ShloMosaic.Lib.Tactic

noncomputable section

namespace Cert.KernelIdeal.Visit

open Cert.KernelIdeal Cert.KernelIdeal.Gen Idealize.ShloMosaic Idealize.ShloMosaic.TcCoe Idealize.SL.Sem

variable {F : FTy → Type} [FloatOps F]

/-- Every access of the body starts at the corner (0, 0) of its buffer. -/
theorem corner : (![0, 0] : Fin 2 → Nat) = fun _ => 0 := funext fun a => by fin_cases a <;> rfl

/-- First visit of a run (k = 0): the scratch ends at the update applied to the freshly stored zero tile. -/
theorem scratch_first (c : Dev nD) (i : grid0.Coords)
    (a3 : Memref sig .tc .vmem S1024x1024 .f32) (h3 : a3.IsWhole) (a4 : Memref sig .tc .vmem S1x1024 .f32) (h4 : a4.IsWhole)
    (a5 : Memref sig .tc .vmem S1024x1024 .f32) (h5 : a5.IsWhole) (a6 : Memref sig .tc .vmem S1x1024 .f32) (h6 : a6.IsWhole)
    (a7 : Memref sig .tc .vmem S1024x1024 .f32) (h7 : a7.IsWhole) (a8 : Memref sig .tc .vmem S1024x1024 .f32) (h8 : a8.IsWhole)
    (hc0 : cond0_0 i) (hc1 : ¬cond0_1 i)
    (x0 : Vec F S1024x1024 .f32) (x1 : Vec F S1x1024 .f32) (x2 : Vec F S1024x1024 .f32) (x3 : Vec F S1x1024 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) corner, View.readCov_unit_zero (S := S1024x1024) _ corner]
  simp only [View.readAt_eq_ld, h3.read_unread, h4.read_unread, h5.read_unread, View.ld_unit_zero (S := S1024x1024) corner,
    View.ld_unit_zero (S := S1x1024) corner]

/-- A middle visit (k = 1, 2): the scratch ends at the update applied to what the visit before left in it. -/
theorem scratch_middle (c : Dev nD) (i : grid0.Coords)
    (a3 : Memref sig .tc .vmem S1024x1024 .f32) (h3 : a3.IsWhole) (a4 : Memref sig .tc .vmem S1x1024 .f32) (h4 : a4.IsWhole)
    (a5 : Memref sig .tc .vmem S1024x1024 .f32) (h5 : a5.IsWhole) (a6 : Memref sig .tc .vmem S1x1024 .f32) (h6 : a6.IsWhole)
    (a7 : Memref sig .tc .vmem S1024x1024 .f32) (h7 : a7.IsWhole) (a8 : Memref sig .tc .vmem S1024x1024 .f32) (h8 : a8.IsWhole)
    (hc0 : ¬cond0_0 i) (hc1 : ¬cond0_1 i)
    (x0 : Vec F S1024x1024 .f32) (x1 : Vec F S1x1024 .f32) (x2 : Vec F S1024x1024 .f32) (x3 : Vec F S1x1024 .f32)
    (xs : Vec F S1024x1024 .f32) :
    sout0_B_0 c i a3 h3 a4 h4 a5 h5 a6 h6 a7 h7 a8 h8 hc0 hc1 x0 x1 x2 x3 xs = k0_pay2 x0 x1 x2 xs := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  sl_unfold_words
  rw [View.canon_unit_zero corner]
  simp only [View.readAt_eq_ld, h3.read_unread, h4.read_unread, h5.read_unread, h8.read_unread,
    View.ld_unit_zero (S := S1024x1024) corner, View.ld_unit_zero (S := S1x1024) corner]

/-- Last visit of a run (k = 3): the scratch receives the same update … -/
theorem scratch_last (c : Dev nD) (i : grid0.Coords)
    (a3 : Memref sig .tc .vmem S1024x1024 .f32) (h3 : a3.IsWhole) (a4 : Memref sig .tc .vmem S1x1024 .f32) (h4 : a4.IsWhole)
    (a5 : Memref sig .tc .vmem S1024x1024 .f32) (h5 : a5.IsWhole) (a6 : Memref sig .tc .vmem S1x1024 .f32) (h6 : a6.IsWhole)
    (a7 : Memref sig .tc .vmem S1024x1024 .f32) (h7 : a7.IsWhole) (a8 : Memref sig .tc .vmem S1024x1024 .f32) (h8 : a8.IsWhole)
    (hc0 : ¬cond0_0 i) (hc1 : cond0_1 i)
    (x0 : Vec F S1024x1024 .f32) (x1 : Vec F S1x1024 .f32) (x2 : Vec F S1024x1024 .f32) (x3 : Vec F S1x1024 .f32)
    (xs : Vec F S1024x1024 .f32) :
    sout0_C_0 c i a3 h3 a4 h4 a5 h5 a6 h6 a7 h7 a8 h8 hc0 hc1 x0 x1 x2 x3 xs = k0_pay2 x0 x1 x2 xs := by
  unfold sout0_C_0
  rw [View.read_writes_eq_canon _ _ _ (scover0_C_0 c i a3 h3 a4 h4 a5 h5 a6 h6 a7 h7 a8 h8 hc0 hc1 x0 x1 x2 x3 xs)]
  unfold kernelRun0_C
  dsimp only
  sl_unfold_words
  rw [View.canon_unit_zero corner]
  simp only [View.readAt_eq_ld, h3.read_unread, h4.read_unread, h5.read_unread, h8.read_unread,
    View.ld_unit_zero (S := S1024x1024) corner, View.ld_unit_zero (S := S1x1024) corner]

/-- … and the output tile is that new scratch plus the bias row. -/
theorem out_last (c : Dev nD) (i : grid0.Coords)
    (a3 : Memref sig .tc .vmem S1024x1024 .f32) (h3 : a3.IsWhole) (a4 : Memref sig .tc .vmem S1x1024 .f32) (h4 : a4.IsWhole)
    (a5 : Memref sig .tc .vmem S1024x1024 .f32) (h5 : a5.IsWhole) (a6 : Memref sig .tc .vmem S1x1024 .f32) (h6 : a6.IsWhole)
    (a7 : Memref sig .tc .vmem S1024x1024 .f32) (h7 : a7.IsWhole) (a8 : Memref sig .tc .vmem S1024x1024 .f32) (h8 : a8.IsWhole)
    (hc0 : ¬cond0_0 i) (hc1 : cond0_1 i)
    (x0 : Vec F S1024x1024 .f32) (x1 : Vec F S1x1024 .f32) (x2 : Vec F S1024x1024 .f32) (x3 : Vec F S1x1024 .f32)
    (xs : Vec F S1024x1024 .f32) :
    out0_C_4 c i a3 h3 a4 h4 a5 h5 a6 h6 a7 h7 a8 h8 hc0 hc1 x0 x1 x2 x3 xs = k0_pay3 (k0_pay2 x0 x1 x2 xs) x3 := by
  unfold out0_C_4
  rw [View.read_writes_eq_canon _ _ _ (cover0_C_4 c i a3 h3 a4 h4 a5 h5 a6 h6 a7 h7 a8 h8 hc0 hc1 x0 x1 x2 x3 xs)]
  unfold kernelRun0_C
  dsimp only
  sl_unfold_words
  rw [View.canon_unit_zero corner]
  simp only [View.readAt_eq_ld, h3.read_unread, h4.read_unread, h5.read_unread, h6.read_unread, h8.read_unread,
    View.ld_unit_zero (S := S1024x1024) corner, View.ld_unit_zero (S := S1x1024) corner,
    View.readCov_unit_zero (S := S1024x1024) _ corner]

end Cert.KernelIdeal.Visit

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Tile.lean ====
/-
  The body's arithmetic on one tile, read at an entry, over the extended reals.

  A change of float format is the identity there, and a product into a zero accumulator is the plain sum over the
  contracted coordinate. So at entry (p, q) of a 1024 x 1024 tile:

    the reset value is 0;
    the update of a running tile acc by an input tile x, a mask row d (shape [1, 1024]) and a weight tile w is
        acc[p, q] + sum over r < 1024 of (x[p, r] * d[0, r]) * w[r, q] ;
    the finish adds the bias row:  s[p, q] + bias[0, q].
-/
import proofs.«127409_j4252017623323_1_alg».proof.Proof.Gen.KernelIdeal.Skeleton
import proofs.«127409_j4252017623323_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-- The reset stores the zero tile. -/
theorem reset_apply (p q : Fin 1024) : k0_pay1 (F := Ideal) (ix2 p q) = 0 := by
  unfold k0_pay1
  rw [shapeCast_self]
  exact Ideal.ofBits_zero_f32

/-- The update: the running entry plus the block's 1024 products. -/
theorem update_apply (x : Vec Ideal S1024x1024 .f32) (d : Vec Ideal S1x1024 .f32) (w acc : Vec Ideal S1024x1024 .f32)
    (p q : Fin 1024) :
    k0_pay2 (F := Ideal) x d w acc (ix2 p q)
      = acc (ix2 p q) + ∑ r : Fin 1024, x (ix2 p r) * d (ix2 (0 : Fin 1) r) * w (ix2 r q) := by
  unfold k0_pay2
  rw [shapeCast_self]
  refine congrArg (acc (ix2 p q) + ·) ?_
  refine (Cert.PlainProduct.matmul_zero_apply (M := 1024) (K := 1024) (N := 1024) none _ _ p q).trans ?_
  refine Finset.sum_congr rfl fun r _ => ?_
  refine congrArg (· * w (ix2 r q)) ?_
  refine congrArg (x (ix2 p r) * ·) ?_
  refine (broadcastTo_1b_ab_apply _ _ p r).trans ?_
  rw [shapeCast_self]

/-- The finish: the accumulated entry plus the bias at its column. -/
theorem finish_apply (s : Vec Ideal S1024x1024 .f32) (bias : Vec Ideal S1x1024 .f32) (p q : Fin 1024) :
    k0_pay3 (F := Ideal) s bias (ix2 p q) = s (ix2 p q) + bias (ix2 (0 : Fin 1) q) := by
  unfold k0_pay3
  refine congrArg (s (ix2 p q) + ·) ?_
  refine (broadcastTo_1b_ab_apply _ _ p q).trans ?_
  rw [shapeCast_self]

end Cert.KernelIdeal.Tile

end
-- ==== Proof.Blocks.lean ====
/-
  Which entries of the arrays a visit reads.

  Grid point t < 64 stands for (a, b, k) with t = 16 a + 4 b + k: a and b pick the output tile, k the block of the
  contracted axis. At t the kernel sees
    rows 1024 a … of x, in the columns 1024 k … ;      the mask at the columns 1024 k … ;
    rows 1024 k … of the weights, in the columns 1024 b … ;   the bias at the columns 1024 b … ;
  and the output tile is rows 1024 a …, columns 1024 b … of the result. The mask and the bias reach the kernel as
  [1, 4096] arrays, the host having reshaped the [4096] arguments; entry (0, i) of such a reshape is entry i.
-/
import proofs.«127409_j4252017623323_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The grid has 64 points. -/
theorem lt64 (t : Fin cfg0.N) : t.val < 64 := lt_of_lt_of_eq t.isLt (show cfg0.N = 64 from N_0)

/-! ## The arrays the region finds, and the tiles a visit is handed, at their literal shapes -/

abbrev xArr (c : Dev nD) : Vec F S4096x4096 .f32 := V m c main_arg0
abbrev dArr (c : Dev nD) : Vec F S1x4096 .f32 := V m c main_v0
abbrev wArr (c : Dev nD) : Vec F S4096x4096 .f32 := V m c main_arg2
abbrev bArr (c : Dev nD) : Vec F S1x4096 .f32 := V m c main_v1

abbrev xTile (c : Dev nD) (t : Fin cfg0.N) : Vec F S1024x1024 .f32 := iblk m c 0 t
abbrev dTile (c : Dev nD) (t : Fin cfg0.N) : Vec F S1x1024 .f32 := iblk m c 1 t
abbrev wTile (c : Dev nD) (t : Fin cfg0.N) : Vec F S1024x1024 .f32 := iblk m c 2 t
abbrev bTile (c : Dev nD) (t : Fin cfg0.N) : Vec F S1x1024 .f32 := iblk m c 3 t

/-! ## The coordinates of a visit -/

/-- Row p of the tile visited at t is this row of x and of the result. -/
def rowAt (t : Fin cfg0.N) (p : Fin 1024) : Fin 4096 := ⟨1024 * (t.val / 16) + p.val, by have := lt64 t; omega⟩
/-- Column q of the tile visited at t is this column of the weights and of the result. -/
def colAt (t : Fin cfg0.N) (q : Fin 1024) : Fin 4096 := ⟨1024 * (t.val / 4 % 4) + q.val, by omega⟩
/-- Position r of the block visited at t is this index of the contracted axis. -/
def midAt (t : Fin cfg0.N) (r : Fin 1024) : Fin 4096 := ⟨1024 * (t.val % 4) + r.val, by omega⟩

/-- The block index of each window at each point, decided over the grid. -/
theorem at_x : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem at_d : ∀ t : Fin cfg0.N, win0_1.index t 0 = 0 ∧ win0_1.index t 1 = t.val % 4 :=
  (by decide +kernel : ∀ t : Fin grid0.N, win0_1.index t 0 = 0 ∧ win0_1.index t 1 = t.val % 4)
theorem at_w : ∀ t : Fin cfg0.N, win0_2.index t 0 = t.val % 4 ∧ win0_2.index t 1 = t.val / 4 % 4 :=
  (by decide +kernel : ∀ t : Fin grid0.N, win0_2.index t 0 = t.val % 4 ∧ win0_2.index t 1 = t.val / 4 % 4)
theorem at_b : ∀ t : Fin cfg0.N, win0_3.index t 0 = 0 ∧ win0_3.index t 1 = t.val / 4 % 4 :=
  (by decide +kernel : ∀ t : Fin grid0.N, win0_3.index t 0 = 0 ∧ win0_3.index t 1 = t.val / 4 % 4)
theorem at_o : ∀ t : Fin cfg0.N, win0_4.index t 0 = t.val / 16 ∧ win0_4.index t 1 = t.val / 4 % 4 :=
  (by decide +kernel : ∀ t : Fin grid0.N, win0_4.index t 0 = t.val / 16 ∧ win0_4.index t 1 = t.val / 4 % 4)

/-! ## A tile's entry is an entry of its array -/

theorem xTile_apply (c : Dev nD) (t : Fin cfg0.N) (p r : Fin 1024) :
    xTile m c t (ix2 p r) = xArr m c (ix2 (rowAt t p) (midAt t r)) := by
  show iblk m c 0 t (ix2 p r) = _
  unfold iblk
  rw [View.read_apply]
  show V m c main_arg0 _ = V m c main_arg0 _
  congr 1
  funext a
  apply Fin.ext
  match a with
  | ⟨0, _⟩ => show win0_0.index t 0 * 1024 + 1 * p.val = 1024 * (t.val / 16) + p.val; rw [(at_x t).1]; omega
  | ⟨1, _⟩ => show win0_0.index t 1 * 1024 + 1 * r.val = 1024 * (t.val % 4) + r.val; rw [(at_x t).2]; omega

theorem dTile_apply (c : Dev nD) (t : Fin cfg0.N) (r : Fin 1024) :
    dTile m c t (ix2 (0 : Fin 1) r) = dArr m c (ix2 (0 : Fin 1) (midAt t r)) := by
  show iblk m c 1 t (ix2 (0 : Fin 1) r) = _
  unfold iblk
  rw [View.read_apply]
  show V m c main_v0 _ = V m c main_v0 _
  congr 1
  funext a
  apply Fin.ext
  match a with
  | ⟨0, _⟩ => show win0_1.index t 0 * 1 + 1 * 0 = 0; rw [(at_d t).1]
  | ⟨1, _⟩ => show win0_1.index t 1 * 1024 + 1 * r.val = 1024 * (t.val % 4) + r.val; rw [(at_d t).2]; omega

theorem wTile_apply (c : Dev nD) (t : Fin cfg0.N) (r q : Fin 1024) :
    wTile m c t (ix2 r q) = wArr m c (ix2 (midAt t r) (colAt t q)) := by
  show iblk m c 2 t (ix2 r q) = _
  unfold iblk
  rw [View.read_apply]
  show V m c main_arg2 _ = V m c main_arg2 _
  congr 1
  funext a
  apply Fin.ext
  match a with
  | ⟨0, _⟩ => show win0_2.index t 0 * 1024 + 1 * r.val = 1024 * (t.val % 4) + r.val; rw [(at_w t).1]; omega
  | ⟨1, _⟩ => show win0_2.index t 1 * 1024 + 1 * q.val = 1024 * (t.val / 4 % 4) + q.val; rw [(at_w t).2]; omega

theorem bTile_apply (c : Dev nD) (t : Fin cfg0.N) (q : Fin 1024) :
    bTile m c t (ix2 (0 : Fin 1) q) = bArr m c (ix2 (0 : Fin 1) (colAt t q)) := by
  show iblk m c 3 t (ix2 (0 : Fin 1) q) = _
  unfold iblk
  rw [View.read_apply]
  show V m c main_v1 _ = V m c main_v1 _
  congr 1
  funext a
  apply Fin.ext
  match a with
  | ⟨0, _⟩ => show win0_3.index t 0 * 1 + 1 * 0 = 0; rw [(at_b t).1]
  | ⟨1, _⟩ => show win0_3.index t 1 * 1024 + 1 * q.val = 1024 * (t.val / 4 % 4) + q.val; rw [(at_b t).2]; omega

/-! ## The arrays are the arguments -/

theorem xArr_eq (c : Dev nD) : xArr m c = m ((c : Thread nD τ).loc main_arg0) := V_main_arg0 m c
theorem wArr_eq (c : Dev nD) : wArr m c = m ((c : Thread nD τ).loc main_arg2) := V_main_arg2 m c

/-- The mask as the region finds it: the [4096] argument reshaped to [1, 4096]. -/
theorem dArr_apply (c : Dev nD) (i : Fin 4096) :
    dArr m c (ix2 (0 : Fin 1) i) = m ((c : Thread nD τ).loc main_arg1) (ix1 i) := by
  have e : (V m c main_v0 : S1x4096.Idx → Elt F .f32)
      = shapeCast S1x4096 (m ((c : Thread nD τ).loc main_arg1)) shapeCasts_S4096_S1x4096 := by
    dsimp only [V, hostOps0]; after_results; rfl
  show V m c main_v0 (ix2 (0 : Fin 1) i) = _
  rw [e]
  exact shapeCast_a_1a_apply _ _ (0 : Fin 1) i

/-- The bias as the region finds it: the [4096] argument reshaped to [1, 4096]. -/
theorem bArr_apply (c : Dev nD) (i : Fin 4096) :
    bArr m c (ix2 (0 : Fin 1) i) = m ((c : Thread nD τ).loc main_arg3) (ix1 i) := by
  have e : (V m c main_v1 : S1x4096.Idx → Elt F .f32)
      = shapeCast S1x4096 (m ((c : Thread nD τ).loc main_arg3)) shapeCasts_S4096_S1x4096 := by
    dsimp only [V, hostOps0]; after_results; rfl
  show V m c main_v1 (ix2 (0 : Fin 1) i) = _
  rw [e]
  exact shapeCast_a_1a_apply _ _ (0 : Fin 1) i

end Cert.KernelIdeal.Blocks

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.Layer.lean ====
/-
  The layer both programs compute, as one function of the four argument arrays.

  With x of shape [4096, 4096], a mask d of shape [4096], weights w of shape [4096, 4096] and a bias of shape [4096],
  the entry (b, o) of the result is

        ( sum over i < 4096 of  (x[b, i] * d[i]) * w[i, o] )  +  bias[o] .

  The kernel forms the sum in four blocks of 1024 consecutive values of i, adding each block's sum to a running total;
  the reference forms it at once. A sum over 4096 = 4 * 1024 indices is the sum over its four blocks, and this holds in
  any additive commutative monoid, so on the extended reals it needs no finiteness of the entries: only that addition is
  commutative and associative there. The partial totals after 0, 1, …, 4 blocks are named here, with the two facts an
  induction over the blocks uses.
-/
import Idealize.ShloMosaic.Lib.ValueIdx
import Idealize.ShloMosaic.PureOps.Ideal
import proofs.«127409_j4252017623323_1_alg».proof.Proof.LibSums

noncomputable section

namespace Cert.MaskedDense

open Idealize.ShloMosaic Idealize.ShloMosaic.ValueIdx
open scoped BigOperators

/-- A [4096, 4096] array of extended reals. -/
abbrev Mat : Type := FVec Ideal ⟨2, ![4096, 4096]⟩ .f32
/-- A [4096] array of extended reals. -/
abbrev Row : Type := FVec Ideal ⟨1, ![4096]⟩ .f32

/-- The i-th product of entry (b, o): the masked input times the weight. -/
def term (x : Mat) (d : Row) (w : Mat) (b o i : Fin 4096) : Ideal .f32 :=
  x (ix2 b i) * d (ix1 i) * w (ix2 i o)

/-- The layer: at (b, o), the sum of the 4096 products plus the bias at o. -/
def layer (x : Mat) (d : Row) (w : Mat) (bias : Row) : Mat :=
  fun j => (∑ i : Fin 4096, term x d w (j 0) (j 1) i) + bias (ix1 (j 1))

theorem layer_apply (x : Mat) (d : Row) (w : Mat) (bias : Row) (b o : Fin 4096) :
    layer x d w bias (ix2 b o) = (∑ i : Fin 4096, term x d w b o i) + bias (ix1 o) := rfl

/-- The sum of the first n blocks of 1024 of a family over 4096 indices. -/
def upTo (f : Fin 4096 → Ideal .f32) (n : ℕ) (hn : n ≤ 4) : Ideal .f32 :=
  Cert.Sums.prefixBlocks 4 1024 f n hn

/-- The total depends on the number of blocks only. -/
theorem upTo_congr (f : Fin 4096 → Ideal .f32) {n n' : ℕ} (h : n = n') (hn : n ≤ 4) (hn' : n' ≤ 4) :
    upTo f n hn = upTo f n' hn' := by
  subst h; rfl

/-- No block: zero. -/
theorem upTo_zero (f : Fin 4096 → Ideal .f32) : upTo f 0 (Nat.zero_le 4) = 0 :=
  Cert.Sums.prefixBlocks_zero 4 1024 f

/-- One more block: the total so far plus the sum over block n, whose r-th index is 1024 * n + r. -/
theorem upTo_succ (f : Fin 4096 → Ideal .f32) (n : ℕ) (hn : n < 4) :
    upTo f (n + 1) hn = upTo f n (Nat.le_of_lt hn) + ∑ r : Fin 1024, f ⟨1024 * n + r.val, by omega⟩ :=
  Cert.Sums.prefixBlocks_succ 4 1024 f n hn

/-- All four blocks: the whole sum. -/
theorem upTo_four (f : Fin 4096 → Ideal .f32) : upTo f 4 (Nat.le_refl 4) = ∑ i : Fin 4096, f i :=
  Cert.Sums.prefixBlocks_all 4 1024 f

end Cert.MaskedDense

end
-- ==== Proof.Running.lean ====
/-
  The running total, visit by visit.

  Write f(i) = (x[b, i] * d[i]) * w[i, o] for the products of one entry (b, o) of the result. During the four visits
  t = 16 a + 4 b' + k, k = 0 … 3, of one output tile the scratch tile holds, at the entry that stands for (b, o),
  the sum of f over the first k + 1 blocks of 1024 indices:

    k = 0:  0 + (block 0)                         the scratch was just reset;
    k > 0:  (total after the visit before) + (block k)      the visit before belongs to the same tile, because
                                                           t - 1 and t differ only in k.

  After the fourth visit that is the whole sum over 4096 indices, and the output tile written there is that sum plus
  the bias: the layer's entry (b, o).
-/
import proofs.«127409_j4252017623323_1_alg».proof.Proof.Visit
import proofs.«127409_j4252017623323_1_alg».proof.Proof.Tile
import proofs.«127409_j4252017623323_1_alg».proof.Proof.Blocks
import proofs.«127409_j4252017623323_1_alg».proof.Proof.Layer

noncomputable section

namespace Cert.KernelIdeal.Running

open Cert.KernelIdeal Cert.KernelIdeal.Gen Cert.KernelIdeal.Blocks Cert.MaskedDense
open Idealize.ShloMosaic Idealize.ShloMosaic.TcCoe Idealize.SL.Sem Idealize.ShloMosaic.ValueIdx
open scoped BigOperators

variable (m : (ℓ : Loc nD τ sig) → Buf (Elt Ideal) ℓ)

/-! ## The four arguments -/

abbrev X (c : Dev nD) : Mat := m ((c : Thread nD τ).loc main_arg0)
abbrev D (c : Dev nD) : Row := m ((c : Thread nD τ).loc main_arg1)
abbrev W (c : Dev nD) : Mat := m ((c : Thread nD τ).loc main_arg2)
abbrev B (c : Dev nD) : Row := m ((c : Thread nD τ).loc main_arg3)

/-- The products of the entry of the result that (p, q) of the tile visited at t stands for. -/
abbrev prods (c : Dev nD) (t : Fin cfg0.N) (p q : Fin 1024) : Fin 4096 → Ideal .f32 :=
  term (X m c) (D m c) (W m c) (rowAt t p) (colAt t q)

/-! ## What each visit leaves, as the body's arithmetic on the visit's tiles -/

/-- First visit of a run: the update of the zero tile. -/
theorem scratch_at_first (c : Dev nD) (t : Fin cfg0.N) (h0 : t.val % 4 = 0) :
    (outsAt0 m c t.val t.isLt).2 = k0_pay2 (xTile m c t) (dTile m c t) (wTile m c t) (k0_pay1 (F := Ideal)) := by
  have h1 : ¬t.val % 4 = 3 := by omega
  rw [outsAt0_A m c t h0 h1]
  dsimp only
  exact Visit.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- A later visit: the update of what the visit before left. -/
theorem scratch_at_later (c : Dev nD) (t : Fin cfg0.N) (h0 : ¬t.val % 4 = 0) :
    (outsAt0 m c t.val t.isLt).2
      = k0_pay2 (xTile m c t) (dTile m c t) (wTile m c t) (outsAt0 m c (t.val - 1) (Nat.lt_of_le_of_lt (Nat.sub_le _ _) t.isLt)).2 := by
  by_cases h1 : t.val % 4 = 3
  · rw [outsAt0_C m c t h0 h1]
    dsimp only
    exact Visit.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Visit.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- Last visit of a run: the output tile is the scratch just written plus the bias row. -/
theorem out_at_last (c : Dev nD) (t : Fin cfg0.N) (h1 : t.val % 4 = 3) :
    (outsAt0 m c t.val t.isLt).1 = k0_pay3 (outsAt0 m c t.val t.isLt).2 (bTile m c t) := by
  have h0 : ¬t.val % 4 = 0 := by omega
  rw [scratch_at_later m c t h0, outsAt0_C m c t h0 h1]
  dsimp only
  exact Visit.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## One block's products, from the tiles -/

/-- The 1024 products a visit forms are block t mod 4 of the entry's products. -/
theorem block_sum (c : Dev nD) (t : Fin cfg0.N) (p q : Fin 1024) :
    ∑ r : Fin 1024, xTile m c t (ix2 p r) * dTile m c t (ix2 (0 : Fin 1) r) * wTile m c t (ix2 r q)
      = ∑ r : Fin 1024, prods m c t p q ⟨1024 * (t.val % 4) + r.val, by omega⟩ := by
  refine Finset.sum_congr rfl fun r _ => ?_
  rw [xTile_apply, dTile_apply, wTile_apply, dArr_apply, xArr_eq, wArr_eq]
  rfl

/-- The update at a visit: the old entry plus block t mod 4. -/
theorem update_at (c : Dev nD) (t : Fin cfg0.N) (acc : Vec Ideal S1024x1024 .f32) (p q : Fin 1024) :
    k0_pay2 (F := Ideal) (xTile m c t) (dTile m c t) (wTile m c t) acc (ix2 p q)
      = acc (ix2 p q) + ∑ r : Fin 1024, prods m c t p q ⟨1024 * (t.val % 4) + r.val, by omega⟩ :=
  (Tile.update_apply _ _ _ _ p q).trans (congrArg (acc (ix2 p q) + ·) (block_sum m c t p q))

/-- The total of k blocks plus block k is the total of k + 1 blocks. -/
theorem next_total (f : Fin 4096 → Ideal .f32) (k : ℕ) (hk : k < 4) (prev : Ideal .f32)
    (hprev : prev = upTo f k (Nat.le_of_lt hk)) :
    prev + ∑ r : Fin 1024, f ⟨1024 * k + r.val, by omega⟩ = upTo f (k + 1) hk := by
  rw [hprev, upTo_succ]

/-! ## The invariant -/

/-- After the visit at point n the scratch holds, at (p, q), the total of the first n mod 4 + 1 blocks. -/
theorem scratch_total (c : Dev nD) : ∀ (n : ℕ) (h : n < cfg0.N) (p q : Fin 1024),
    (outsAt0 m c n h).2 (ix2 p q) = upTo (prods m c ⟨n, h⟩ p q) (n % 4 + 1) (by omega) := by
  intro n
  induction n with
  | zero =>
    intro h p q
    rw [scratch_at_first m c ⟨0, h⟩ rfl]
    refine (update_at m c ⟨0, h⟩ _ p q).trans ?_
    refine (next_total (prods m c ⟨0, h⟩ p q) (0 % 4) (by omega) _ ?_).trans (upTo_congr _ rfl _ _)
    rw [Tile.reset_apply]
    exact (upTo_zero _).symm
  | succ n ih =>
    intro h p q
    have hN : n + 1 < 64 := lt_of_lt_of_eq h (show cfg0.N = 64 from N_0)
    by_cases h0 : (n + 1) % 4 = 0
    · rw [scratch_at_first m c ⟨n + 1, h⟩ h0]
      refine (update_at m c ⟨n + 1, h⟩ _ p q).trans ?_
      refine (next_total (prods m c ⟨n + 1, h⟩ p q) ((n + 1) % 4) (by omega) _ ?_).trans (upTo_congr _ rfl _ _)
      rw [Tile.reset_apply]
      exact (upTo_zero _).symm.trans (upTo_congr _ h0.symm _ _)
    · rw [scratch_at_later m c ⟨n + 1, h⟩ h0]
      refine (update_at m c ⟨n + 1, h⟩ _ p q).trans ?_
      refine (next_total (prods m c ⟨n + 1, h⟩ p q) ((n + 1) % 4) (by omega) _ ?_).trans (upTo_congr _ rfl _ _)
      refine (ih (Nat.lt_of_succ_lt h) p q).trans ?_
      have er : rowAt (⟨n, Nat.lt_of_succ_lt h⟩ : Fin cfg0.N) p = rowAt ⟨n + 1, h⟩ p := Fin.ext (by
        show 1024 * (n / 16) + p.val = 1024 * ((n + 1) / 16) + p.val; omega)
      have ec : colAt (⟨n, Nat.lt_of_succ_lt h⟩ : Fin cfg0.N) q = colAt ⟨n + 1, h⟩ q := Fin.ext (by
        show 1024 * (n / 4 % 4) + q.val = 1024 * ((n + 1) / 4 % 4) + q.val; omega)
      show upTo (term (X m c) (D m c) (W m c) (rowAt ⟨n, _⟩ p) (colAt ⟨n, _⟩ q)) _ _ = _
      rw [er, ec]
      exact upTo_congr _ (by omega) _ _

/-- At the last visit of a run the output tile holds the layer's entries. -/
theorem out_is_layer (c : Dev nD) (t : Fin cfg0.N) (h1 : t.val % 4 = 3) (p q : Fin 1024) :
    (outsAt0 m c t.val t.isLt).1 (ix2 p q)
      = layer (X m c) (D m c) (W m c) (B m c) (ix2 (rowAt t p) (colAt t q)) := by
  rw [out_at_last m c t h1, layer_apply]
  refine (Tile.finish_apply _ _ p q).trans ?_
  rw [bTile_apply, bArr_apply, scratch_total m c t.val t.isLt p q]
  refine congrArg (· + B m c (ix1 (colAt t q))) ?_
  exact (upTo_congr _ (by omega) _ _).trans (upTo_four _)

end Cert.KernelIdeal.Running

end
-- ==== Proof.Whole.lean ====
/-
  From tiles to the whole result array.

  The output tile of (a, b) is written back once, at the last of its four visits (t = 16 a + 4 b + 3), and there it
  holds the layer's entries for the rows 1024 a … and the columns 1024 b …. Those sixteen tiles fill the
  [4096, 4096] array: entry (i, j) lies in the tile a = i / 1024, b = j / 1024. So after the run the result array is
  the layer of the four arguments, entry by entry.
-/
import proofs.«127409_j4252017623323_1_alg».proof.Proof.Gen.KernelIdeal.Value
import proofs.«127409_j4252017623323_1_alg».proof.Proof.Running

noncomputable section

namespace Cert.KernelIdeal.Whole

open Cert.KernelIdeal Cert.KernelIdeal.Gen Cert.KernelIdeal.Blocks Cert.KernelIdeal.Running Cert.MaskedDense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the result array ends holding: the layer of the four arguments. -/
abbrev result (c : Dev nD) : Buf (Elt Ideal) ((c : Thread nD τ).loc main_v2) :=
  layer (X m c) (D m c) (W m c) (B m c)

/-- A write-back happens at the last visit of a run, and writes the tile of the layer that the visit stands for. -/
theorem flushed_is_layer (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  rw [Cert.KernelIdeal.Value.flushed4]
  funext j
  obtain ⟨p, q, rfl⟩ : ∃ (p q : Fin 1024), j = ix2 p q := ⟨j 0, j 1, eq_ix2 j⟩
  show (outsAt0 m c t.val t.isLt).1 (ix2 p q) = result m c (((cfg0.win 4).blk t).view.emb (ix2 p q))
  rw [out_is_layer m c t h3 p q]
  congr 1
  funext a
  apply Fin.ext
  match a with
  | ⟨0, _⟩ => show 1024 * (t.val / 16) + p.val = win0_4.index t 0 * 1024 + 1 * p.val; rw [(at_o t).1]; omega
  | ⟨1, _⟩ => show 1024 * (t.val / 4 % 4) + q.val = win0_4.index t 1 * 1024 + 1 * q.val; rw [(at_o t).2]; omega

/-- An entry of the array is in the tile of point t iff each coordinate is in the tile's range on its axis. -/
theorem mem_tile (t : Fin cfg0.N) (i : S4096x4096.Idx) :
    i ∈ ((cfg0.win 4).blk t).view.set
      ↔ ∀ a : Fin 2, win0_4.index t a * S1024x1024.size a ≤ (i a).val
          ∧ (i a).val < win0_4.index t a * S1024x1024.size a + S1024x1024.size a := by
  show i ∈ ((View.whole main_v2).slice (win0_4.rect t)).set ↔ _
  rw [View.set_slice_whole, Rect.mem_set_unit]
  exact Iff.rfl

/-- Every entry (i, j) is written back, at the last visit of the tile (i / 1024, j / 1024). -/
theorem covered (i : S4096x4096.Idx) :
    ∃ t : Fin cfg0.N, (cfg0.win 4).flush t = true ∧ i ∈ ((cfg0.win 4).blk t).view.set := by
  have h0 : (i 0).val < 4096 := (i 0).isLt
  have h1 : (i 1).val < 4096 := (i 1).isLt
  have hN : cfg0.N = 64 := N_0
  refine ⟨⟨16 * ((i 0).val / 1024) + 4 * ((i 1).val / 1024) + 3, by rw [hN]; omega⟩, ?_, ?_⟩
  · refine (flush0_4 _).mpr ?_
    show (16 * ((i 0).val / 1024) + 4 * ((i 1).val / 1024) + 3) % 4 = 3
    omega
  · rw [mem_tile]
    intro a
    match a with
    | ⟨0, _⟩ =>
      show win0_4.index _ 0 * 1024 ≤ (i 0).val ∧ (i 0).val < win0_4.index _ 0 * 1024 + 1024
      rw [(at_o _).1]
      show (16 * ((i 0).val / 1024) + 4 * ((i 1).val / 1024) + 3) / 16 * 1024 ≤ (i 0).val
        ∧ (i 0).val < (16 * ((i 0).val / 1024) + 4 * ((i 1).val / 1024) + 3) / 16 * 1024 + 1024
      omega
    | ⟨1, _⟩ =>
      show win0_4.index _ 1 * 1024 ≤ (i 1).val ∧ (i 1).val < win0_4.index _ 1 * 1024 + 1024
      rw [(at_o _).2]
      show (16 * ((i 0).val / 1024) + 4 * ((i 1).val / 1024) + 3) / 4 % 4 * 1024 ≤ (i 1).val
        ∧ (i 1).val < (16 * ((i 0).val / 1024) + 4 * ((i 1).val / 1024) + 3) / 4 % 4 * 1024 + 1024
      omega

/-- After the run the result array is the layer. -/
theorem final (c : Dev nD) : (dats m 0 c).arrAt 4 cfg0.N = result m c :=
  (dats m 0 c).arrAt_eq_of_cover 4 (result m c) (flushed_is_layer m c) covered

/-- The kernel's run: it ends with the result array at the layer of the arguments, and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.RefLayer.lean ====
/-
  The reference computes the layer.

  Its seven host operations are: the mask spread to [1, 4096] and then over the rows, its product with x, the matrix
  product with the weights, the bias spread the same way, and the final sum. Read at entry (b, o): the matrix product is
  the sum over i of (x[b, i] * d[i]) * w[i, o], a spread array reads its source at the column, and the sum adds bias[o].
-/
import proofs.«127409_j4252017623323_1_alg».proof.Proof.Gen.ReferenceIdeal.Read
import proofs.«127409_j4252017623323_1_alg».proof.Proof.Layer

noncomputable section

namespace Cert.ReferenceIdeal.Whole

open Cert.ReferenceIdeal Cert.ReferenceIdeal.Read Idealize.ShloMosaic Idealize.ShloMosaic.ValueIdx Cert.MaskedDense
open scoped BigOperators

/-- The left operand of the matrix product is read at (b, i), … -/
theorem left_index (b o i : Fin 4096) : lidx_main_v3 (ix2 b o) i = ix2 b i :=
  funext fun a => Fin.ext (by match a with | ⟨0, _⟩ => rfl | ⟨1, _⟩ => rfl)

/-- … the right operand at (i, o), … -/
theorem right_index (b o i : Fin 4096) : ridx_main_v3 (ix2 b o) i = ix2 i o :=
  funext fun a => Fin.ext (by match a with | ⟨0, _⟩ => rfl | ⟨1, _⟩ => rfl)

/-- … the mask, spread twice, at the column i of the left operand, … -/
theorem mask_index (b i : Fin 4096) : idx_main_v0 (idx_main_v1 (ix2 b i)) = ix1 i :=
  funext fun a => Fin.ext (by match a with | ⟨0, _⟩ => rfl)

/-- … and the bias, spread twice, at the column o of the result. -/
theorem bias_index (b o : Fin 4096) : idx_main_v4 (idx_main_v5 (ix2 b o)) = ix1 o :=
  funext fun a => Fin.ext (by match a with | ⟨0, _⟩ => rfl)

/-- The reference's result, as a function of its four arguments, is the layer. -/
theorem reference_is_layer (x : Mat) (d : Row) (w : Mat) (bias : Row) :
    val_main_v6 (F := Ideal) x d w bias = layer x d w bias := by
  funext j
  obtain ⟨b, o, rfl⟩ : ∃ (b o : Fin 4096), j = ix2 b o := ⟨j 0, j 1, eq_ix2 j⟩
  rw [val_main_v6_apply, val_main_v3_apply, val_main_v5_apply, val_main_v4_apply, bias_index, layer_apply]
  refine congrArg (· + bias (ix1 o)) ?_
  refine Finset.sum_congr rfl fun i _ => ?_
  rw [left_index, right_index, val_main_v2_apply, val_main_v1_apply, val_main_v0_apply, mask_index]
  rfl

end Cert.ReferenceIdeal.Whole

end
-- ==== Proof.lean ====
/-
  A dense layer with a multiplicative mask on the input features: the kernel against its reference.

  Both programs take x [4096, 4096], a mask d [4096], weights w [4096, 4096] and a bias [4096], and return, at
  (b, o), the sum over i of (x[b, i] * d[i]) * w[i, o], plus bias[o].

  The kernel computes it tile by tile on a 4 x 4 x 4 grid: for each 1024 x 1024 output tile it walks the four blocks of
  1024 along the contracted axis, keeping the running total in a scratch tile that is zeroed at the first block, and
  adds the bias when it writes the tile back after the fourth. Its operands are narrowed to a shorter float format
  before the product; over the extended reals that narrowing is the identity, and a product into a zero accumulator is
  the plain sum over the contracted coordinate. The reference forms the whole sum in one matrix product.

  The two agree entry by entry because a sum over 4096 = 4 * 1024 indices is the sum of its four blocks' sums. That
  uses only that addition of extended reals is commutative and associative, so finiteness of the inputs is never
  needed, and the precondition is not opened.

  The kernel's idealization is its own text read over the extended reals (no operation was replaced), so the
  idealization claim is trivial. The three frame claims are the generated frames (for the reference: its generated run,
  with the result dropped).
-/
import proofs.«127409_j4252017623323_1_alg».proof.Defs
import proofs.«127409_j4252017623323_1_alg».proof.Proof.Gen.Kernel
import proofs.«127409_j4252017623323_1_alg».proof.Proof.Gen.Kernel.Skeleton
import proofs.«127409_j4252017623323_1_alg».proof.Proof.Gen.Kernel.Launch
import proofs.«127409_j4252017623323_1_alg».proof.Proof.Gen.Kernel.Points
import proofs.«127409_j4252017623323_1_alg».proof.Proof.Gen.Kernel.Frame
import proofs.«127409_j4252017623323_1_alg».proof.Proof.Gen.KernelIdeal
import proofs.«127409_j4252017623323_1_alg».proof.Proof.Gen.KernelIdeal.Skeleton
import proofs.«127409_j4252017623323_1_alg».proof.Proof.Gen.KernelIdeal.Launch
import proofs.«127409_j4252017623323_1_alg».proof.Proof.Gen.KernelIdeal.Points
import proofs.«127409_j4252017623323_1_alg».proof.Proof.Gen.KernelIdeal.Frame
import proofs.«127409_j4252017623323_1_alg».proof.Proof.Gen.ReferenceIdeal
import proofs.«127409_j4252017623323_1_alg».proof.Proof.Gen.Pre_finite_inputs
import proofs.«127409_j4252017623323_1_alg».proof.Proof.Gen.KernelIdeal.Value
import proofs.«127409_j4252017623323_1_alg».proof.Proof.Gen.ReferenceIdeal.Run
import proofs.«127409_j4252017623323_1_alg».proof.Proof.Gen.ReferenceIdeal.Read
import proofs.«127409_j4252017623323_1_alg».proof.Proof.Whole
import proofs.«127409_j4252017623323_1_alg».proof.Proof.RefLayer
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at the layer of those
    arguments: the kernel tile by tile (four blocks of the contracted axis summed in turn, then the bias), the
    reference in one matrix product and one sum. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Whole.reference_is_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
